-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 45
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S16384x1024.size a
  hwx0_15 : ∀ i : grid0.Coords, EltTy.bits .f32 = 32 ∨ (Rect.block (s := S16384x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S16384x1024.size a
  hwx0_16 : ∀ i : grid0.Coords, EltTy.bits .f32 = 32 ∨ (Rect.block (s := S16384x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v24_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S16384x4096, .f32⟩
  | .hbm, ⟨25, _⟩ => ⟨S1024x4096, .f32⟩
  | .hbm, ⟨26, _⟩ => ⟨S16384x4096, .f32⟩
  | .hbm, ⟨27, _⟩ => ⟨S16384x4096, .f32⟩
  | .hbm, ⟨28, _⟩ => ⟨S4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.Spec.lean ====
/-
  One step of an LSTM cell, written once over the extended reals.

  A batch of 16384 rows carries an input `x`, a hidden state `h` and a cell state `c`, each of 1024 entries per row.
  Each of the four gates (input, forget, output, candidate) has two 1024 × 1024 weight matrices, stored
  [unit, feature], and two bias vectors.  The pre-activation of a gate at row `r` and unit `j` is

      (Σₖ x[r,k] · W[j,k]  +  Σₖ h[r,k] · U[j,k])  +  (bW[j] + bU[j]),

  with exactly this grouping of the three sums.  With σ the logistic function,

      c' = σ(forget) · c + σ(input) · tanh(candidate),        h' = σ(output) · tanh(c').

  Nothing here is rearranged across an addition or a product, so no finiteness of the entries is ever used.
-/
import Idealize.ShloMosaic.PureOps.Ideal
import Idealize.ShloMosaic.Lib.ValueIdx

noncomputable section

namespace Cert.LstmCell

open Idealize.ShloMosaic Idealize.ShloMosaic.ValueIdx

/-- 16384 rows of 1024 entries. -/
abbrev Batch : Type := (⟨2, ![16384, 1024]⟩ : Shape).Idx → EReal
/-- A 1024 × 1024 weight matrix, indexed [unit, feature]. -/
abbrev Weight : Type := (⟨2, ![1024, 1024]⟩ : Shape).Idx → EReal
/-- A bias vector, one entry per unit. -/
abbrev Bias : Type := (⟨1, ![1024]⟩ : Shape).Idx → EReal

/-- A gate's pre-activation at batch row `r` and unit `j`: the two contractions over the 1024 features, added, and then
    the sum of the two biases. -/
def gate (x h : Batch) (W : Weight) (bW : Bias) (U : Weight) (bU : Bias) (r : Fin 16384) (j : Fin 1024) : EReal :=
  ((∑ k : Fin 1024, x (ix2 r k) * W (ix2 j k)) + ∑ k : Fin 1024, h (ix2 r k) * U (ix2 j k)) + (bW (ix1 j) + bU (ix1 j))

/-- The next cell state: the forget gate times the old cell state plus the input gate times the squashed candidate. -/
def cellNext (x h c : Batch) (Wi : Weight) (bWi : Bias) (Ui : Weight) (bUi : Bias) (Wf : Weight) (bWf : Bias) (Uf : Weight) (bUf : Bias)
    (Wc : Weight) (bWc : Bias) (Uc : Weight) (bUc : Bias) : Batch := fun i =>
  Ideal.logistic (gate x h Wf bWf Uf bUf (i 0) (i 1)) * c i
    + Ideal.logistic (gate x h Wi bWi Ui bUi (i 0) (i 1)) * Ideal.tanh (gate x h Wc bWc Uc bUc (i 0) (i 1))

/-- The next hidden state: the output gate times the squashed next cell state. -/
def hiddenNext (x h c : Batch) (Wi : Weight) (bWi : Bias) (Ui : Weight) (bUi : Bias) (Wf : Weight) (bWf : Bias) (Uf : Weight) (bUf : Bias)
    (Wo : Weight) (bWo : Bias) (Uo : Weight) (bUo : Bias) (Wc : Weight) (bWc : Bias) (Uc : Weight) (bUc : Bias) : Batch := fun i =>
  Ideal.logistic (gate x h Wo bWo Uo bUo (i 0) (i 1)) * Ideal.tanh (cellNext x h c Wi bWi Ui bUi Wf bWf Uf bUf Wc bWc Uc bUc i)

/-- The binary32 pattern of one denotes the real number one. -/
theorem ofBits_one : Ideal.ofBits .f32 0x3F800000#32 = 1 := by
  simp [Ideal.ofBits, Ideal.ieee, -EReal.coe_mul]; norm_num

/-- The logistic function spelt out: one over one plus the exponential of the negated argument, the one given by its
    binary32 pattern. -/
theorem logistic_spelt (a : EReal) :
    Ideal.div (Ideal.ofBits .f32 0x3F800000#32) (Ideal.ofBits .f32 0x3F800000#32 + Ideal.exp (-a)) = Ideal.logistic a := by
  rw [ofBits_one]; rfl

end Cert.LstmCell

end
-- ==== Proof.RefGates.lean ====
/-
  The reference's fused pre-activations, read at an index.

  The reference stacks the four gates' weight matrices along their unit axis into one 4096 × 1024 matrix (and the
  biases into one vector of 4096), multiplies the batch by the transposed stack, and cuts the 4096 columns of the
  result into four runs of 1024.  Column 1024·g + j of the fused product therefore contracts row j of gate g's own
  matrix, and entry 1024·g + j of a stacked bias is entry j of gate g's bias: at that column the fused
  pre-activation is gate g's pre-activation at unit j.
-/
import proofs.«158879_j16243566313496_1_alg».proof.Proof.Gen.ReferenceIdeal.Read
import proofs.«158879_j16243566313496_1_alg».proof.Proof.Spec
import Idealize.ShloMosaic.Lib.Pipeline.Value
import Idealize.ShloMosaic.Lib.ValueIdx
import Idealize.ShloMosaic.PureOps.Ideal.Laws

noncomputable section

namespace Cert.ReferenceIdeal.LstmRead

open Cert.ReferenceIdeal Cert.ReferenceIdeal.Read Cert.LstmCell Idealize.ShloMosaic Idealize.ShloMosaic.ValueIdx

/-- Four 1024 × 1024 matrices stacked along their rows, read at row 1024·g + q: row q of the g-th matrix. -/
theorem stacked_rows {α : Type} (y0 y1 y2 y3 : S1024x1024.Idx → α)
    (hc : Shape.Concatenates [S1024x1024, S1024x1024, S1024x1024, S1024x1024] S4096x1024 0)
    (g : Fin 4) (q k : Fin 1024) (j : S4096x1024.Idx)
    (hj0 : (j 0).val = 1024 * g.val + q.val) (hj1 : (j 1).val = k.val) :
    concatenate S4096x1024 0 [⟨S1024x1024, y0⟩, ⟨S1024x1024, y1⟩, ⟨S1024x1024, y2⟩, ⟨S1024x1024, y3⟩] hc j
      = (![y0, y1, y2, y3] g) (ix2 q k) := by
  have hi : ∀ b : Fin S1024x1024.rank, b.cast (rfl : S1024x1024.rank = S4096x1024.rank) ≠ (0 : Fin S4096x1024.rank) →
      ((ix2 q k : S1024x1024.Idx) b).val = (j (b.cast rfl)).val := fun b hb => by
    match b with
    | ⟨0, _⟩ => exact absurd rfl hb
    | ⟨1, _⟩ => exact hj1.symm
  match g with
  | ⟨0, _⟩ =>
    exact concatenate_apply_piece 0 [⟨S1024x1024, y0⟩, ⟨S1024x1024, y1⟩, ⟨S1024x1024, y2⟩, ⟨S1024x1024, y3⟩] hc j 0 (by show (0 : Nat) < 4; omega) S1024x1024 y0 rfl rfl 0 rfl (ix2 q k) hi
      (by show 0 + q.val = (j 0).val; rw [hj0]; show 0 + q.val = 1024 * 0 + q.val; omega)
  | ⟨1, _⟩ =>
    exact concatenate_apply_piece 0 [⟨S1024x1024, y0⟩, ⟨S1024x1024, y1⟩, ⟨S1024x1024, y2⟩, ⟨S1024x1024, y3⟩] hc j 1 (by show (1 : Nat) < 4; omega) S1024x1024 y1 rfl rfl 1024 rfl (ix2 q k) hi
      (by show 1024 + q.val = (j 0).val; rw [hj0]; show 1024 + q.val = 1024 * 1 + q.val; omega)
  | ⟨2, _⟩ =>
    exact concatenate_apply_piece 0 [⟨S1024x1024, y0⟩, ⟨S1024x1024, y1⟩, ⟨S1024x1024, y2⟩, ⟨S1024x1024, y3⟩] hc j 2 (by show (2 : Nat) < 4; omega) S1024x1024 y2 rfl rfl 2048 rfl (ix2 q k) hi
      (by show 2048 + q.val = (j 0).val; rw [hj0]; show 2048 + q.val = 1024 * 2 + q.val; omega)
  | ⟨3, _⟩ =>
    exact concatenate_apply_piece 0 [⟨S1024x1024, y0⟩, ⟨S1024x1024, y1⟩, ⟨S1024x1024, y2⟩, ⟨S1024x1024, y3⟩] hc j 3 (by show (3 : Nat) < 4; omega) S1024x1024 y3 rfl rfl 3072 rfl (ix2 q k) hi
      (by show 3072 + q.val = (j 0).val; rw [hj0]; show 3072 + q.val = 1024 * 3 + q.val; omega)

/-- Four vectors of 1024 entries laid end to end, read at entry 1024·g + q: entry q of the g-th vector. -/
theorem stacked_entries {α : Type} (y0 y1 y2 y3 : S1024.Idx → α)
    (hc : Shape.Concatenates [S1024, S1024, S1024, S1024] S4096 0)
    (g : Fin 4) (q : Fin 1024) (j : S4096.Idx) (hj0 : (j 0).val = 1024 * g.val + q.val) :
    concatenate S4096 0 [⟨S1024, y0⟩, ⟨S1024, y1⟩, ⟨S1024, y2⟩, ⟨S1024, y3⟩] hc j = (![y0, y1, y2, y3] g) (ix1 q) := by
  have hi : ∀ b : Fin S1024.rank, b.cast (rfl : S1024.rank = S4096.rank) ≠ (0 : Fin S4096.rank) →
      ((ix1 q : S1024.Idx) b).val = (j (b.cast rfl)).val := fun b hb => by
    match b with
    | ⟨0, _⟩ => exact absurd rfl hb
  match g with
  | ⟨0, _⟩ =>
    exact concatenate_apply_piece 0 [⟨S1024, y0⟩, ⟨S1024, y1⟩, ⟨S1024, y2⟩, ⟨S1024, y3⟩] hc j 0 (by show (0 : Nat) < 4; omega) S1024 y0 rfl rfl 0 rfl (ix1 q) hi
      (by show 0 + q.val = (j 0).val; rw [hj0]; show 0 + q.val = 1024 * 0 + q.val; omega)
  | ⟨1, _⟩ =>
    exact concatenate_apply_piece 0 [⟨S1024, y0⟩, ⟨S1024, y1⟩, ⟨S1024, y2⟩, ⟨S1024, y3⟩] hc j 1 (by show (1 : Nat) < 4; omega) S1024 y1 rfl rfl 1024 rfl (ix1 q) hi
      (by show 1024 + q.val = (j 0).val; rw [hj0]; show 1024 + q.val = 1024 * 1 + q.val; omega)
  | ⟨2, _⟩ =>
    exact concatenate_apply_piece 0 [⟨S1024, y0⟩, ⟨S1024, y1⟩, ⟨S1024, y2⟩, ⟨S1024, y3⟩] hc j 2 (by show (2 : Nat) < 4; omega) S1024 y2 rfl rfl 2048 rfl (ix1 q) hi
      (by show 2048 + q.val = (j 0).val; rw [hj0]; show 2048 + q.val = 1024 * 2 + q.val; omega)
  | ⟨3, _⟩ =>
    exact concatenate_apply_piece 0 [⟨S1024, y0⟩, ⟨S1024, y1⟩, ⟨S1024, y2⟩, ⟨S1024, y3⟩] hc j 3 (by show (3 : Nat) < 4; omega) S1024 y3 rfl rfl 3072 rfl (ix1 q) hi
      (by show 3072 + q.val = (j 0).val; rw [hj0]; show 3072 + q.val = 1024 * 3 + q.val; omega)

/-- The fused pre-activation at batch row `r` and column 1024·g + q is gate g's pre-activation at row `r`, unit `q`:
    the two fused products contract the rows of gate g's own matrices, and the stacked biases give gate g's. -/
theorem fused_at (x0 x1 : Batch) (x3 : Weight) (x4 : Bias) (x5 : Weight) (x6 : Bias) (x7 : Weight) (x8 : Bias) (x9 : Weight) (x10 : Bias)
    (x11 : Weight) (x12 : Bias) (x13 : Weight) (x14 : Bias) (x15 : Weight) (x16 : Bias) (x17 : Weight) (x18 : Bias)
    (g : Fin 4) (r : Fin 16384) (q : Fin 1024) (i : S16384x4096.Idx)
    (h0 : (i 0).val = r.val) (h1 : (i 1).val = 1024 * g.val + q.val) :
    val_main_v12 (F := Ideal) x0 x1 x3 x4 x5 x6 x7 x8 x9 x10 x11 x12 x13 x14 x15 x16 x17 x18 i
      = gate x0 x1 (![x3, x7, x11, x15] g) (![x4, x8, x12, x16] g) (![x5, x9, x13, x17] g) (![x6, x10, x14, x18] g) r q := by
  unfold gate
  rw [val_main_v12_apply, val_main_v8_apply, val_main_v5_apply, val_main_v7_apply, val_main_v11_apply,
    val_main_v10_apply, val_main_v9_apply]
  show (_ + _) + (_ + _) = _
  congr 1
  · congr 1
    · refine Finset.sum_congr rfl fun k _ => ?_
      rw [val_main_v4_apply]
      congr 1
      · exact congrArg x0 (funext fun a => Fin.ext (by
          match a with
          | ⟨0, _⟩ => exact h0
          | ⟨1, _⟩ => rfl))
      · exact stacked_rows x3 x7 x11 x15 _ g q k _ h1 rfl
    · refine Finset.sum_congr rfl fun k _ => ?_
      rw [val_main_v6_apply]
      congr 1
      · exact congrArg x1 (funext fun a => Fin.ext (by
          match a with
          | ⟨0, _⟩ => exact h0
          | ⟨1, _⟩ => rfl))
      · exact stacked_rows x5 x9 x13 x17 _ g q k _ h1 rfl
  · congr 1
    · exact stacked_entries x4 x8 x12 x16 _ g q _ h1
    · exact stacked_entries x6 x10 x14 x18 _ g q _ h1

end Cert.ReferenceIdeal.LstmRead

end
-- ==== Proof.RefValue.lean ====
/-
  What the reference computes, as the LSTM cell of the specification.

  After the fused pre-activations are cut into the four gates, the reference spells the logistic function out as
  1 / (1 + exp(−a)); on the extended reals that quotient is the logistic function itself.  The rest is the cell's own
  arithmetic, in the specification's order: forget · c + input · tanh(candidate), then output · tanh of that.
-/
import proofs.«158879_j16243566313496_1_alg».proof.Proof.RefGates

noncomputable section

namespace Cert.ReferenceIdeal.LstmRead

open Cert.ReferenceIdeal Cert.ReferenceIdeal.Read Cert.LstmCell Idealize.ShloMosaic Idealize.ShloMosaic.ValueIdx

/-- The reference's second result is the next cell state. -/
theorem cell_eq (x0 x1 x2 : Batch) (x3 : Weight) (x4 : Bias) (x5 : Weight) (x6 : Bias) (x7 : Weight) (x8 : Bias) (x9 : Weight) (x10 : Bias)
    (x11 : Weight) (x12 : Bias) (x13 : Weight) (x14 : Bias) (x15 : Weight) (x16 : Bias) (x17 : Weight) (x18 : Bias) :
    val_main_v38 (F := Ideal) x0 x1 x2 x3 x4 x5 x6 x7 x8 x9 x10 x11 x12 x13 x14 x15 x16 x17 x18 = cellNext x0 x1 x2 x3 x4 x5 x6 x7 x8 x9 x10 x15 x16 x17 x18 := by
  funext i
  have ei := fused_at x0 x1 x3 x4 x5 x6 x7 x8 x9 x10 x11 x12 x13 x14 x15 x16 x17 x18 0 (i 0) (i 1) (idx_main_v13 i) rfl
    (by show (i 1).val = 1024 * 0 + (i 1).val; omega)
  have ef := fused_at x0 x1 x3 x4 x5 x6 x7 x8 x9 x10 x11 x12 x13 x14 x15 x16 x17 x18 1 (i 0) (i 1) (idx_main_v14 i) rfl
    (by show 1024 + (i 1).val = 1024 * 1 + (i 1).val; omega)
  have ec := fused_at x0 x1 x3 x4 x5 x6 x7 x8 x9 x10 x11 x12 x13 x14 x15 x16 x17 x18 3 (i 0) (i 1) (idx_main_v16 i) rfl
    (by show 3072 + (i 1).val = 1024 * 3 + (i 1).val; omega)
  simp only [val_main_v38_apply, val_main_v36_apply, val_main_v37_apply, val_main_v28_apply, val_main_v22_apply,
    val_main_v35_apply, val_main_v27_apply, val_main_v26_apply, val_main_v21_apply, val_main_v20_apply,
    val_main_v25_apply, val_main_v24_apply, val_main_v19_apply, val_main_v18_apply, val_main_v23_apply,
    val_main_v17_apply, val_main_v14_apply, val_main_v13_apply, val_main_v16_apply,
    val_main_cst_apply, val_main_cst_0_apply, val_main_cst_1_apply, val_main_cst_2_apply]
  rw [ei, ef, ec]
  simp only [Ideal.addf_def, Ideal.mulf_def, Ideal.hostDivf_def, Ideal.hostUnary_exp_def, Ideal.hostNegf_def,
    Ideal.negf_def, Ideal.hostUnary_tanh_def, Ideal.ofBits_def, logistic_spelt]
  rfl

/-- The reference's first result is the next hidden state. -/
theorem hidden_eq (x0 x1 x2 : Batch) (x3 : Weight) (x4 : Bias) (x5 : Weight) (x6 : Bias) (x7 : Weight) (x8 : Bias) (x9 : Weight) (x10 : Bias)
    (x11 : Weight) (x12 : Bias) (x13 : Weight) (x14 : Bias) (x15 : Weight) (x16 : Bias) (x17 : Weight) (x18 : Bias) :
    val_main_v40 (F := Ideal) x0 x1 x2 x3 x4 x5 x6 x7 x8 x9 x10 x11 x12 x13 x14 x15 x16 x17 x18 = hiddenNext x0 x1 x2 x3 x4 x5 x6 x7 x8 x9 x10 x11 x12 x13 x14 x15 x16 x17 x18 := by
  funext i
  have eo := fused_at x0 x1 x3 x4 x5 x6 x7 x8 x9 x10 x11 x12 x13 x14 x15 x16 x17 x18 2 (i 0) (i 1) (idx_main_v15 i) rfl
    (by show 2048 + (i 1).val = 1024 * 2 + (i 1).val; omega)
  have ecell := congrFun (cell_eq x0 x1 x2 x3 x4 x5 x6 x7 x8 x9 x10 x11 x12 x13 x14 x15 x16 x17 x18) i
  simp only [val_main_v40_apply, val_main_v39_apply, val_main_v34_apply, val_main_v33_apply, val_main_v32_apply,
    val_main_v31_apply, val_main_v30_apply, val_main_v29_apply, val_main_v15_apply,
    val_main_cst_3_apply, val_main_cst_4_apply]
  rw [eo, ecell]
  simp only [Ideal.addf_def, Ideal.mulf_def, Ideal.hostDivf_def, Ideal.hostUnary_exp_def, Ideal.hostNegf_def,
    Ideal.negf_def, Ideal.hostUnary_tanh_def, Ideal.ofBits_def, logistic_spelt]
  rfl

end Cert.ReferenceIdeal.LstmRead

end
-- ==== Proof.KernelHost.lean ====
/-
  The arrays the kernel's resident windows stage, as functions of the arguments.

  Before the kernel is launched each weight matrix is transposed, so that the kernel contracts along the rows of what it
  loads, and narrowed to bfloat16, which on the extended reals changes nothing: the staged matrix at [feature k, unit j]
  is the argument matrix at [unit j, feature k].  Each gate's two bias vectors are added and laid out as one row of 1024.
-/
import proofs.«158879_j16243566313496_1_alg».proof.Proof.Gen.KernelIdeal.Frame
import proofs.«158879_j16243566313496_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.LstmHost

open Cert.KernelIdeal Cert.KernelIdeal.Gen Idealize.ShloMosaic Idealize.ShloMosaic.TcCoe Idealize.SL.Sem
open Idealize.ShloMosaic.ValueIdx Idealize.ShloMosaic.StableHlo Cert.LstmCell

variable (m : (ℓ : Loc nD τ sig) → Buf (Elt Ideal) ℓ)

/-! ## Buffers at their literal types

A buffer's type is computed from its reference; these identities give an argument or a staged array the type the
specification and the arithmetic are stated over. -/

/-- An argument of 16384 × 1024 entries, as a batch. -/
abbrev toBatch (x : FVec Ideal S16384x1024 .f32) : Batch := x
/-- An argument weight matrix. -/
abbrev toWeight (x : FVec Ideal S1024x1024 .f32) : Weight := x
/-- An argument bias vector. -/
abbrev toBias (x : FVec Ideal S1024 .f32) : Bias := x
/-- A staged (transposed, narrowed) weight matrix. -/
abbrev stagedWeight (x : FVec Ideal S1024x1024 .bf16) : FVec Ideal S1024x1024 .bf16 := x
/-- A staged row of summed biases. -/
abbrev stagedRow (x : FVec Ideal S1x1024 .f32) : FVec Ideal S1x1024 .f32 := x

/-- A transposed matrix, narrowed, read at [k, j]: the matrix at [j, k]. -/
theorem transposed_at (W : FVec Ideal S1024x1024 .f32) (ht : S1024x1024.Transposes [1, 0] S1024x1024)
    (hb : FTy.bf16.bits < FTy.f32.bits) (k j : Fin 1024) :
    (truncf .bf16 (transpose S1024x1024 [1, 0] W ht) hb : FVec Ideal S1024x1024 .bf16) (ix2 k j) = W (ix2 j k) :=
  transpose_apply [1, 0] W ht (ix2 k j) (ix2 j k) (fun b => match b with
    | ⟨0, _⟩ => rfl
    | ⟨1, _⟩ => rfl)

/-- The sum of two bias vectors laid out as one row, read at column j: the two entries j, added. -/
theorem bias_row_at (a b : FVec Ideal S1024 .f32) (hs : S1024.ShapeCasts S1x1024) (u : Fin 1) (j : Fin 1024) :
    (shapeCast S1x1024 (addf a b) hs : FVec Ideal S1x1024 .f32) (ix2 u j) = a (ix1 j) + b (ix1 j) :=
  shapeCast_a_1a_apply (addf a b) hs u j

/-- Window 3 stages the input gate's input weights, transposed. -/
theorem staged_v1 (c : Dev nD) (k j : Fin 1024) :
    stagedWeight (V m c main_v1) (ix2 k j) = toWeight (m ((c : Thread nD τ).loc main_arg3)) (ix2 j k) := by
  have e : stagedWeight (V m c main_v1) = truncf .bf16 (transpose S1024x1024 [1, 0]
      (toWeight (m ((c : Thread nD τ).loc main_arg3))) transposes_S1024x1024_S1024x1024_1_0) bitsLt_bf16_f32 := by
    dsimp only [stagedWeight, toWeight, V, hostOps0]; after_results
  rw [e]
  exact transposed_at _ _ _ k j

/-- Window 5 stages the input gate's two biases, added. -/
theorem staged_v17 (c : Dev nD) (u : Fin 1) (j : Fin 1024) :
    stagedRow (V m c main_v17) (ix2 u j)
      = toBias (m ((c : Thread nD τ).loc main_arg4)) (ix1 j) + toBias (m ((c : Thread nD τ).loc main_arg6)) (ix1 j) := by
  have e : stagedRow (V m c main_v17) = shapeCast S1x1024 (addf (toBias (m ((c : Thread nD τ).loc main_arg4)))
      (toBias (m ((c : Thread nD τ).loc main_arg6)))) shapeCasts_S1024_S1x1024 := by
    dsimp only [stagedRow, toBias, V, hostOps0]; after_results; rfl
  rw [e]
  exact bias_row_at _ _ _ u j

/-- Window 4 stages the input gate's hidden weights, transposed. -/
theorem staged_v3 (c : Dev nD) (k j : Fin 1024) :
    stagedWeight (V m c main_v3) (ix2 k j) = toWeight (m ((c : Thread nD τ).loc main_arg5)) (ix2 j k) := by
  have e : stagedWeight (V m c main_v3) = truncf .bf16 (transpose S1024x1024 [1, 0]
      (toWeight (m ((c : Thread nD τ).loc main_arg5))) transposes_S1024x1024_S1024x1024_1_0) bitsLt_bf16_f32 := by
    dsimp only [stagedWeight, toWeight, V, hostOps0]; after_results
  rw [e]
  exact transposed_at _ _ _ k j

/-- Window 6 stages the forget gate's input weights, transposed. -/
theorem staged_v5 (c : Dev nD) (k j : Fin 1024) :
    stagedWeight (V m c main_v5) (ix2 k j) = toWeight (m ((c : Thread nD τ).loc main_arg7)) (ix2 j k) := by
  have e : stagedWeight (V m c main_v5) = truncf .bf16 (transpose S1024x1024 [1, 0]
      (toWeight (m ((c : Thread nD τ).loc main_arg7))) transposes_S1024x1024_S1024x1024_1_0) bitsLt_bf16_f32 := by
    dsimp only [stagedWeight, toWeight, V, hostOps0]; after_results
  rw [e]
  exact transposed_at _ _ _ k j

/-- Window 7 stages the forget gate's hidden weights, transposed. -/
theorem staged_v7 (c : Dev nD) (k j : Fin 1024) :
    stagedWeight (V m c main_v7) (ix2 k j) = toWeight (m ((c : Thread nD τ).loc main_arg9)) (ix2 j k) := by
  have e : stagedWeight (V m c main_v7) = truncf .bf16 (transpose S1024x1024 [1, 0]
      (toWeight (m ((c : Thread nD τ).loc main_arg9))) transposes_S1024x1024_S1024x1024_1_0) bitsLt_bf16_f32 := by
    dsimp only [stagedWeight, toWeight, V, hostOps0]; after_results
  rw [e]
  exact transposed_at _ _ _ k j

/-- Window 8 stages the forget gate's two biases, added. -/
theorem staged_v19 (c : Dev nD) (u : Fin 1) (j : Fin 1024) :
    stagedRow (V m c main_v19) (ix2 u j)
      = toBias (m ((c : Thread nD τ).loc main_arg8)) (ix1 j) + toBias (m ((c : Thread nD τ).loc main_arg10)) (ix1 j) := by
  have e : stagedRow (V m c main_v19) = shapeCast S1x1024 (addf (toBias (m ((c : Thread nD τ).loc main_arg8)))
      (toBias (m ((c : Thread nD τ).loc main_arg10)))) shapeCasts_S1024_S1x1024 := by
    dsimp only [stagedRow, toBias, V, hostOps0]; after_results; rfl
  rw [e]
  exact bias_row_at _ _ _ u j

/-- Window 9 stages the output gate's input weights, transposed. -/
theorem staged_v9 (c : Dev nD) (k j : Fin 1024) :
    stagedWeight (V m c main_v9) (ix2 k j) = toWeight (m ((c : Thread nD τ).loc main_arg11)) (ix2 j k) := by
  have e : stagedWeight (V m c main_v9) = truncf .bf16 (transpose S1024x1024 [1, 0]
      (toWeight (m ((c : Thread nD τ).loc main_arg11))) transposes_S1024x1024_S1024x1024_1_0) bitsLt_bf16_f32 := by
    dsimp only [stagedWeight, toWeight, V, hostOps0]; after_results
  rw [e]
  exact transposed_at _ _ _ k j

/-- Window 10 stages the output gate's hidden weights, transposed. -/
theorem staged_v11 (c : Dev nD) (k j : Fin 1024) :
    stagedWeight (V m c main_v11) (ix2 k j) = toWeight (m ((c : Thread nD τ).loc main_arg13)) (ix2 j k) := by
  have e : stagedWeight (V m c main_v11) = truncf .bf16 (transpose S1024x1024 [1, 0]
      (toWeight (m ((c : Thread nD τ).loc main_arg13))) transposes_S1024x1024_S1024x1024_1_0) bitsLt_bf16_f32 := by
    dsimp only [stagedWeight, toWeight, V, hostOps0]; after_results
  rw [e]
  exact transposed_at _ _ _ k j

/-- Window 11 stages the output gate's two biases, added. -/
theorem staged_v21 (c : Dev nD) (u : Fin 1) (j : Fin 1024) :
    stagedRow (V m c main_v21) (ix2 u j)
      = toBias (m ((c : Thread nD τ).loc main_arg12)) (ix1 j) + toBias (m ((c : Thread nD τ).loc main_arg14)) (ix1 j) := by
  have e : stagedRow (V m c main_v21) = shapeCast S1x1024 (addf (toBias (m ((c : Thread nD τ).loc main_arg12)))
      (toBias (m ((c : Thread nD τ).loc main_arg14)))) shapeCasts_S1024_S1x1024 := by
    dsimp only [stagedRow, toBias, V, hostOps0]; after_results; rfl
  rw [e]
  exact bias_row_at _ _ _ u j

/-- Window 12 stages the candidate's input weights, transposed. -/
theorem staged_v13 (c : Dev nD) (k j : Fin 1024) :
    stagedWeight (V m c main_v13) (ix2 k j) = toWeight (m ((c : Thread nD τ).loc main_arg15)) (ix2 j k) := by
  have e : stagedWeight (V m c main_v13) = truncf .bf16 (transpose S1024x1024 [1, 0]
      (toWeight (m ((c : Thread nD τ).loc main_arg15))) transposes_S1024x1024_S1024x1024_1_0) bitsLt_bf16_f32 := by
    dsimp only [stagedWeight, toWeight, V, hostOps0]; after_results
  rw [e]
  exact transposed_at _ _ _ k j

/-- Window 13 stages the candidate's hidden weights, transposed. -/
theorem staged_v15 (c : Dev nD) (k j : Fin 1024) :
    stagedWeight (V m c main_v15) (ix2 k j) = toWeight (m ((c : Thread nD τ).loc main_arg17)) (ix2 j k) := by
  have e : stagedWeight (V m c main_v15) = truncf .bf16 (transpose S1024x1024 [1, 0]
      (toWeight (m ((c : Thread nD τ).loc main_arg17))) transposes_S1024x1024_S1024x1024_1_0) bitsLt_bf16_f32 := by
    dsimp only [stagedWeight, toWeight, V, hostOps0]; after_results
  rw [e]
  exact transposed_at _ _ _ k j

/-- Window 14 stages the candidate's two biases, added. -/
theorem staged_v23 (c : Dev nD) (u : Fin 1) (j : Fin 1024) :
    stagedRow (V m c main_v23) (ix2 u j)
      = toBias (m ((c : Thread nD τ).loc main_arg16)) (ix1 j) + toBias (m ((c : Thread nD τ).loc main_arg18)) (ix1 j) := by
  have e : stagedRow (V m c main_v23) = shapeCast S1x1024 (addf (toBias (m ((c : Thread nD τ).loc main_arg16)))
      (toBias (m ((c : Thread nD τ).loc main_arg18)))) shapeCasts_S1024_S1x1024 := by
    dsimp only [stagedRow, toBias, V, hostOps0]; after_results; rfl
  rw [e]
  exact bias_row_at _ _ _ u j

end Cert.KernelIdeal.LstmHost

end
-- ==== Proof.KernelBody.lean ====
/-
  The kernel body's arithmetic, read at one entry of a 256 × 1024 block.

  The body holds a block of 256 batch rows of `x` and of `h`, narrows them to bfloat16 (no change on the extended
  reals), multiplies each by a staged 1024 × 1024 matrix into a zero accumulator, adds the two products and then a staged
  bias row broadcast over the 256 rows.  At row `p`, unit `q` that is

      (Σₖ X[p,k] · Wt[k,q]  +  Σₖ H[p,k] · Ut[k,q])  +  b[0,q].

  Four such pre-activations feed the logistic function and tanh exactly as the cell's definition says.  When the block's
  rows are rows of the whole arrays and the staged matrices are the transposed arguments, this is the specification's gate.
-/
import proofs.«158879_j16243566313496_1_alg».proof.Proof.Gen.KernelIdeal.Skeleton
import proofs.«158879_j16243566313496_1_alg».proof.Proof.Spec
import Idealize.ShloMosaic.Lib.Pipeline.Value
import Idealize.ShloMosaic.Lib.ValueIdx
import Idealize.ShloMosaic.PureOps.Ideal.Laws

noncomputable section

namespace Cert.KernelIdeal.LstmBody

open Cert.KernelIdeal Cert.KernelIdeal.Gen Cert.LstmCell Idealize.ShloMosaic Idealize.ShloMosaic.ValueIdx

/-! ## The matrix product at an entry -/

theorem lhs_mm_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_mm_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_mm_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_mm_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256 × 1024 block times a 1024 × 1024 matrix into a zero accumulator, at [p, q]: the sum over the 1024 features. -/
theorem matmul_at (A : FVec Ideal S256x1024 .bf16) (B : FVec Ideal S1024x1024 .bf16) (p : Fin 256) (q : Fin 1024) :
    matmul (F := Ideal) dot_S256x1024_S1024x1024_S256x1024_1_0_0_1_n_n none A B (constant (F := Ideal) S256x1024 .f32 0x00000000#32) (ix2 p q)
      = ∑ k : Fin 1024, A (ix2 p k) * B (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- A row of 1024 broadcast over 256 rows, at [p, q]: the row's entry q. -/
theorem row_bcast_at (b : FVec Ideal S1x1024 .f32) (hb : S1x1024.Broadcasts S256x1024) (p : Fin 256) (q : Fin 1024) :
    broadcastTo S256x1024 b hb (ix2 p q) = b (ix2 (0 : Fin 1) q) :=
  broadcastTo_apply b hb (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-! ## One gate's pre-activation over a block -/

/-- The pre-activation the body forms from a block of `x`, a block of `h`, two staged matrices and a staged bias row. -/
def gateBlock (X H : FVec Ideal S256x1024 .f32) (Wt Ut : FVec Ideal S1024x1024 .bf16) (b : FVec Ideal S1x1024 .f32)
    (p : Fin 256) (q : Fin 1024) : EReal :=
  ((∑ k : Fin 1024, X (ix2 p k) * Wt (ix2 k q)) + ∑ k : Fin 1024, H (ix2 p k) * Ut (ix2 k q)) + b (ix2 (0 : Fin 1) q)

/-- Two products into zero accumulators, added, plus a broadcast bias row, at [p, q]. -/
theorem gate_expr_at (A B : FVec Ideal S256x1024 .bf16) (Wt Ut : FVec Ideal S1024x1024 .bf16) (b : FVec Ideal S1x1024 .f32)
    (hb : S1x1024.Broadcasts S256x1024) (p : Fin 256) (q : Fin 1024) :
    addf (addf (matmul (F := Ideal) dot_S256x1024_S1024x1024_S256x1024_1_0_0_1_n_n none A Wt (constant (F := Ideal) S256x1024 .f32 0x00000000#32))
        (matmul (F := Ideal) dot_S256x1024_S1024x1024_S256x1024_1_0_0_1_n_n none B Ut (constant (F := Ideal) S256x1024 .f32 0x00000000#32)))
      (broadcastTo S256x1024 b hb) (ix2 p q)
      = ((∑ k : Fin 1024, A (ix2 p k) * Wt (ix2 k q)) + ∑ k : Fin 1024, B (ix2 p k) * Ut (ix2 k q)) + b (ix2 (0 : Fin 1) q) := by
  rw [addf_apply, addf_apply, matmul_at, matmul_at, row_bcast_at]

/-- The block pre-activation is the specification's gate, once the block's rows are rows `r` of the whole arrays, the
    staged matrices are the transposed weights, and the staged row is the sum of the two biases. -/
theorem gateBlock_eq_gate (X H : FVec Ideal S256x1024 .f32) (Wt Ut : FVec Ideal S1024x1024 .bf16) (b : FVec Ideal S1x1024 .f32)
    (x h : Batch) (W : Weight) (bW : Bias) (U : Weight) (bU : Bias) (r : Fin 16384) (p : Fin 256) (q : Fin 1024)
    (hX : ∀ k : Fin 1024, X (ix2 p k) = x (ix2 r k)) (hH : ∀ k : Fin 1024, H (ix2 p k) = h (ix2 r k))
    (hW : ∀ k : Fin 1024, Wt (ix2 k q) = W (ix2 q k)) (hU : ∀ k : Fin 1024, Ut (ix2 k q) = U (ix2 q k))
    (hb : b (ix2 (0 : Fin 1) q) = bW (ix1 q) + bU (ix1 q)) :
    gateBlock X H Wt Ut b p q = gate x h W bW U bU r q := by
  unfold gateBlock gate
  rw [hb]
  congr 1
  congr 1
  · exact Finset.sum_congr rfl fun k _ => by rw [hX k, hW k]
  · exact Finset.sum_congr rfl fun k _ => by rw [hH k, hU k]

/-! ## The body's payloads at an entry -/

/-- The input gate's pre-activation as the body computes it. -/
theorem pay5_at (X H : FVec Ideal S256x1024 .f32) (Wt Ut : FVec Ideal S1024x1024 .bf16) (b : FVec Ideal S1x1024 .f32)
    (p : Fin 256) (q : Fin 1024) : k0_pay5 (F := Ideal) X H Wt Ut b (ix2 p q) = gateBlock X H Wt Ut b p q := by
  unfold k0_pay5 k0_pay3 k0_pay4 gateBlock
  simp only [shapeCast_self]
  exact gate_expr_at _ _ Wt Ut b _ p q

/-- The forget gate's pre-activation as the body computes it. -/
theorem pay6_at (X H : FVec Ideal S256x1024 .f32) (Wt Ut : FVec Ideal S1024x1024 .bf16) (b : FVec Ideal S1x1024 .f32)
    (p : Fin 256) (q : Fin 1024) : k0_pay6 (F := Ideal) X H Wt Ut b (ix2 p q) = gateBlock X H Wt Ut b p q := by
  unfold k0_pay6 k0_pay3 k0_pay4 gateBlock
  simp only [shapeCast_self]
  exact gate_expr_at _ _ Wt Ut b _ p q

/-- The next cell state over a block: forget · c + input · tanh(candidate). -/
def cellBlock (X H C : FVec Ideal S256x1024 .f32) (WiT UiT : FVec Ideal S1024x1024 .bf16) (bi : FVec Ideal S1x1024 .f32)
    (WfT UfT : FVec Ideal S1024x1024 .bf16) (bf : FVec Ideal S1x1024 .f32)
    (WcT UcT : FVec Ideal S1024x1024 .bf16) (bc : FVec Ideal S1x1024 .f32) (p : Fin 256) (q : Fin 1024) : EReal :=
  Ideal.logistic (gateBlock X H WfT UfT bf p q) * C (ix2 p q)
    + Ideal.logistic (gateBlock X H WiT UiT bi p q) * Ideal.tanh (gateBlock X H WcT UcT bc p q)

/-- The next hidden state over a block: output · tanh(next cell state). -/
def hiddenBlock (X H C : FVec Ideal S256x1024 .f32) (WiT UiT : FVec Ideal S1024x1024 .bf16) (bi : FVec Ideal S1x1024 .f32)
    (WfT UfT : FVec Ideal S1024x1024 .bf16) (bf : FVec Ideal S1x1024 .f32)
    (WoT UoT : FVec Ideal S1024x1024 .bf16) (bo : FVec Ideal S1x1024 .f32) (WcT UcT : FVec Ideal S1024x1024 .bf16) (bc : FVec Ideal S1x1024 .f32) (p : Fin 256) (q : Fin 1024) : EReal :=
  Ideal.logistic (gateBlock X H WoT UoT bo p q) * Ideal.tanh (cellBlock X H C WiT UiT bi WfT UfT bf WcT UcT bc p q)

/-- The payload the body stores as the next cell state. -/
theorem cell_pay_at (X H C : FVec Ideal S256x1024 .f32) (WiT UiT : FVec Ideal S1024x1024 .bf16) (bi : FVec Ideal S1x1024 .f32)
    (WfT UfT : FVec Ideal S1024x1024 .bf16) (bf : FVec Ideal S1x1024 .f32)
    (WcT UcT : FVec Ideal S1024x1024 .bf16) (bc : FVec Ideal S1x1024 .f32) (p : Fin 256) (q : Fin 1024) :
    k0_pay1 (F := Ideal) (k0_pay3 X) (k0_pay4 H) C (k0_pay5 X H WiT UiT bi) (k0_pay6 X H WfT UfT bf) WcT UcT bc (ix2 p q)
      = cellBlock X H C WiT UiT bi WfT UfT bf WcT UcT bc p q := by
  unfold k0_pay1 cellBlock
  simp only [shapeCast_self]
  refine congrArg₂ (· + ·) (congrArg₂ (· * ·) (congrArg Ideal.logistic (pay6_at X H WfT UfT bf p q)) rfl)
    (congrArg₂ (· * ·) (congrArg Ideal.logistic (pay5_at X H WiT UiT bi p q)) (congrArg Ideal.tanh ?_))
  unfold k0_pay3 k0_pay4 gateBlock
  exact gate_expr_at _ _ WcT UcT bc _ p q

/-- The payload the body stores as the next hidden state. -/
theorem hidden_pay_at (X H C : FVec Ideal S256x1024 .f32) (WiT UiT : FVec Ideal S1024x1024 .bf16) (bi : FVec Ideal S1x1024 .f32)
    (WfT UfT : FVec Ideal S1024x1024 .bf16) (bf : FVec Ideal S1x1024 .f32)
    (WoT UoT : FVec Ideal S1024x1024 .bf16) (bo : FVec Ideal S1x1024 .f32) (WcT UcT : FVec Ideal S1024x1024 .bf16) (bc : FVec Ideal S1x1024 .f32) (p : Fin 256) (q : Fin 1024) :
    k0_pay2 (F := Ideal) (k0_pay3 X) (k0_pay4 H) C (k0_pay5 X H WiT UiT bi) (k0_pay6 X H WfT UfT bf) (k0_pay7 X WoT) (k0_pay8 UoT) bo WcT UcT bc (ix2 p q)
      = hiddenBlock X H C WiT UiT bi WfT UfT bf WoT UoT bo WcT UcT bc p q := by
  unfold k0_pay2 hiddenBlock
  simp only [shapeCast_self]
  refine congrArg₂ (· * ·) (congrArg Ideal.logistic ?_)
    (congrArg Ideal.tanh (cell_pay_at X H C WiT UiT bi WfT UfT bf WcT UcT bc p q))
  unfold k0_pay7 k0_pay8 k0_pay3 k0_pay4 gateBlock
  simp only [shapeCast_self]
  exact gate_expr_at _ _ WoT UoT bo _ p q

/-! ## The block's values are the specification's -/

/-- Over a block whose rows are rows `r` of the whole arrays, with the staged matrices the transposed weights and the
    staged rows the summed biases, the block's next cell state at [p, q] is the specification's at [r, q]. -/
theorem cellBlock_eq_cellNext (X H C : FVec Ideal S256x1024 .f32) (WiT UiT : FVec Ideal S1024x1024 .bf16) (bi : FVec Ideal S1x1024 .f32)
    (WfT UfT : FVec Ideal S1024x1024 .bf16) (bf : FVec Ideal S1x1024 .f32)
    (WcT UcT : FVec Ideal S1024x1024 .bf16) (bc : FVec Ideal S1x1024 .f32)
    (x h c : Batch) (Wi : Weight) (bWi : Bias) (Ui : Weight) (bUi : Bias) (Wf : Weight) (bWf : Bias) (Uf : Weight) (bUf : Bias)
    (Wc : Weight) (bWc : Bias) (Uc : Weight) (bUc : Bias) (r : Fin 16384) (p : Fin 256) (q : Fin 1024)
    (hX : ∀ k : Fin 1024, X (ix2 p k) = x (ix2 r k)) (hH : ∀ k : Fin 1024, H (ix2 p k) = h (ix2 r k))
    (hC : C (ix2 p q) = c (ix2 r q))
    (hWi : ∀ k : Fin 1024, WiT (ix2 k q) = Wi (ix2 q k)) (hUi : ∀ k : Fin 1024, UiT (ix2 k q) = Ui (ix2 q k))
    (hbi : bi (ix2 (0 : Fin 1) q) = bWi (ix1 q) + bUi (ix1 q))
    (hWf : ∀ k : Fin 1024, WfT (ix2 k q) = Wf (ix2 q k)) (hUf : ∀ k : Fin 1024, UfT (ix2 k q) = Uf (ix2 q k))
    (hbf : bf (ix2 (0 : Fin 1) q) = bWf (ix1 q) + bUf (ix1 q))
    (hWc : ∀ k : Fin 1024, WcT (ix2 k q) = Wc (ix2 q k)) (hUc : ∀ k : Fin 1024, UcT (ix2 k q) = Uc (ix2 q k))
    (hbc : bc (ix2 (0 : Fin 1) q) = bWc (ix1 q) + bUc (ix1 q)) :
    cellBlock X H C WiT UiT bi WfT UfT bf WcT UcT bc p q
      = cellNext x h c Wi bWi Ui bUi Wf bWf Uf bUf Wc bWc Uc bUc (ix2 r q) := by
  unfold cellBlock cellNext
  rw [gateBlock_eq_gate X H WfT UfT bf x h Wf bWf Uf bUf r p q hX hH hWf hUf hbf,
    gateBlock_eq_gate X H WiT UiT bi x h Wi bWi Ui bUi r p q hX hH hWi hUi hbi,
    gateBlock_eq_gate X H WcT UcT bc x h Wc bWc Uc bUc r p q hX hH hWc hUc hbc, hC]

/-- Likewise the block's next hidden state at [p, q] is the specification's at [r, q]. -/
theorem hiddenBlock_eq_hiddenNext (X H C : FVec Ideal S256x1024 .f32) (WiT UiT : FVec Ideal S1024x1024 .bf16) (bi : FVec Ideal S1x1024 .f32)
    (WfT UfT : FVec Ideal S1024x1024 .bf16) (bf : FVec Ideal S1x1024 .f32)
    (WoT UoT : FVec Ideal S1024x1024 .bf16) (bo : FVec Ideal S1x1024 .f32) (WcT UcT : FVec Ideal S1024x1024 .bf16) (bc : FVec Ideal S1x1024 .f32)
    (x h c : Batch) (Wi : Weight) (bWi : Bias) (Ui : Weight) (bUi : Bias) (Wf : Weight) (bWf : Bias) (Uf : Weight) (bUf : Bias)
    (Wo : Weight) (bWo : Bias) (Uo : Weight) (bUo : Bias) (Wc : Weight) (bWc : Bias) (Uc : Weight) (bUc : Bias) (r : Fin 16384) (p : Fin 256) (q : Fin 1024)
    (hX : ∀ k : Fin 1024, X (ix2 p k) = x (ix2 r k)) (hH : ∀ k : Fin 1024, H (ix2 p k) = h (ix2 r k))
    (hC : C (ix2 p q) = c (ix2 r q))
    (hWi : ∀ k : Fin 1024, WiT (ix2 k q) = Wi (ix2 q k)) (hUi : ∀ k : Fin 1024, UiT (ix2 k q) = Ui (ix2 q k))
    (hbi : bi (ix2 (0 : Fin 1) q) = bWi (ix1 q) + bUi (ix1 q))
    (hWf : ∀ k : Fin 1024, WfT (ix2 k q) = Wf (ix2 q k)) (hUf : ∀ k : Fin 1024, UfT (ix2 k q) = Uf (ix2 q k))
    (hbf : bf (ix2 (0 : Fin 1) q) = bWf (ix1 q) + bUf (ix1 q))
    (hWo : ∀ k : Fin 1024, WoT (ix2 k q) = Wo (ix2 q k)) (hUo : ∀ k : Fin 1024, UoT (ix2 k q) = Uo (ix2 q k))
    (hbo : bo (ix2 (0 : Fin 1) q) = bWo (ix1 q) + bUo (ix1 q))
    (hWc : ∀ k : Fin 1024, WcT (ix2 k q) = Wc (ix2 q k)) (hUc : ∀ k : Fin 1024, UcT (ix2 k q) = Uc (ix2 q k))
    (hbc : bc (ix2 (0 : Fin 1) q) = bWc (ix1 q) + bUc (ix1 q)) :
    hiddenBlock X H C WiT UiT bi WfT UfT bf WoT UoT bo WcT UcT bc p q
      = hiddenNext x h c Wi bWi Ui bUi Wf bWf Uf bUf Wo bWo Uo bUo Wc bWc Uc bUc (ix2 r q) := by
  unfold hiddenBlock hiddenNext
  rw [gateBlock_eq_gate X H WoT UoT bo x h Wo bWo Uo bUo r p q hX hH hWo hUo hbo,
    cellBlock_eq_cellNext X H C WiT UiT bi WfT UfT bf WcT UcT bc x h c Wi bWi Ui bUi Wf bWf Uf bUf Wc bWc Uc bUc r p q
      hX hH hC hWi hUi hbi hWf hUf hbf hWc hUc hbc]

end Cert.KernelIdeal.LstmBody

end
-- ==== Proof.KernelValue.lean ====
/-
  From the kernel's blocks to its two result arrays.

  The grid has 64 points; point t works on batch rows 256·t … 256·t + 255.  The windows of `x`, `h`, `c` and of the two
  results move with the point (block index (t, 0)); the twelve windows of staged weights and bias rows stay at block
  (0, 0).  So row p of a moving block is row 256·t + p of its array, a resident block is its whole array, and what point
  t writes back is rows 256·t … 256·t + 255 of the specification's next hidden state and next cell state.  The 64 blocks
  tile the 16384 rows, so after the run the two result arrays are those two functions of the arguments.
-/
import proofs.«158879_j16243566313496_1_alg».proof.Proof.Gen.KernelIdeal.Value
import proofs.«158879_j16243566313496_1_alg».proof.Proof.KernelHost
import proofs.«158879_j16243566313496_1_alg».proof.Proof.KernelBody

noncomputable section

namespace Cert.KernelIdeal.LstmValue

open Cert.KernelIdeal Cert.KernelIdeal.Gen Cert.KernelIdeal.LstmHost Cert.KernelIdeal.LstmBody Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A 256 × 1024 block at its literal type. -/
abbrev stagedBlock (x : FVec Ideal S256x1024 .f32) : FVec Ideal S256x1024 .f32 := x

/-- The batch row that row p of point t's block is. -/
def rowOf (t : Fin cfg0.N) (p : Fin 256) : Fin 16384 :=
  ⟨256 * t.val + p.val, by have ht : t.val < 64 := lt_of_lt_of_eq t.isLt N_0; have hp := p.isLt; omega⟩

theorem rowOf_val (t : Fin cfg0.N) (p : Fin 256) : (rowOf t p).val = 256 * t.val + p.val := rfl

/-! ## The printed index maps, decided over the 64 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)

/-! ## Each window's block, read off its array -/

/-- Row p of the block of x at point t is row 256·t + p of the argument. -/
theorem block0_at (c : Dev nD) (t : Fin cfg0.N) (p : Fin 256) (k : Fin 1024) :
    stagedBlock (iblk m c 0 t) (ix2 p k) = toBatch (m ((c : Thread nD τ).loc main_arg0)) (ix2 (rowOf t p) k) := by
  show V m c main_arg0 (((cfg0.win 0).blk t).view.emb (ix2 p k)) = m ((c : Thread nD τ).loc main_arg0) (ix2 (rowOf t p) k)
  rw [V_main_arg0]
  refine congrArg _ (funext fun a => Fin.ext ?_)
  match a with
  | ⟨0, _⟩ => show win0_0.index t (0 : Fin 2) * 256 + 1 * p.val = 256 * t.val + p.val; rw [(idx0 t).1]; omega
  | ⟨1, _⟩ => show win0_0.index t (1 : Fin 2) * 1024 + 1 * k.val = k.val; rw [(idx0 t).2]; omega

/-- Row p of the block of h at point t is row 256·t + p of the argument. -/
theorem block1_at (c : Dev nD) (t : Fin cfg0.N) (p : Fin 256) (k : Fin 1024) :
    stagedBlock (iblk m c 1 t) (ix2 p k) = toBatch (m ((c : Thread nD τ).loc main_arg1)) (ix2 (rowOf t p) k) := by
  show V m c main_arg1 (((cfg0.win 1).blk t).view.emb (ix2 p k)) = m ((c : Thread nD τ).loc main_arg1) (ix2 (rowOf t p) k)
  rw [V_main_arg1]
  refine congrArg _ (funext fun a => Fin.ext ?_)
  match a with
  | ⟨0, _⟩ => show win0_1.index t (0 : Fin 2) * 256 + 1 * p.val = 256 * t.val + p.val; rw [(idx1 t).1]; omega
  | ⟨1, _⟩ => show win0_1.index t (1 : Fin 2) * 1024 + 1 * k.val = k.val; rw [(idx1 t).2]; omega

/-- Row p of the block of c at point t is row 256·t + p of the argument. -/
theorem block2_at (c : Dev nD) (t : Fin cfg0.N) (p : Fin 256) (k : Fin 1024) :
    stagedBlock (iblk m c 2 t) (ix2 p k) = toBatch (m ((c : Thread nD τ).loc main_arg2)) (ix2 (rowOf t p) k) := by
  show V m c main_arg2 (((cfg0.win 2).blk t).view.emb (ix2 p k)) = m ((c : Thread nD τ).loc main_arg2) (ix2 (rowOf t p) k)
  rw [V_main_arg2]
  refine congrArg _ (funext fun a => Fin.ext ?_)
  match a with
  | ⟨0, _⟩ => show win0_2.index t (0 : Fin 2) * 256 + 1 * p.val = 256 * t.val + p.val; rw [(idx2 t).1]; omega
  | ⟨1, _⟩ => show win0_2.index t (1 : Fin 2) * 1024 + 1 * k.val = k.val; rw [(idx2 t).2]; omega

/-- The resident block of window 3 is the input gate's input weights, transposed, whatever the point. -/
theorem block3_at (c : Dev nD) (t : Fin cfg0.N) (k q : Fin 1024) :
    stagedWeight (iblk m c 3 t) (ix2 k q) = toWeight (m ((c : Thread nD τ).loc main_arg3)) (ix2 q k) := by
  refine Eq.trans ?_ (staged_v1 m c k q)
  show V m c main_v1 (((cfg0.win 3).blk t).view.emb (ix2 k q)) = V m c main_v1 (ix2 k q)
  refine congrArg _ (funext fun a => Fin.ext ?_)
  match a with
  | ⟨0, _⟩ => show win0_3.index t (0 : Fin 2) * 1024 + 1 * k.val = k.val; rw [(idx3 t).1]; omega
  | ⟨1, _⟩ => show win0_3.index t (1 : Fin 2) * 1024 + 1 * q.val = q.val; rw [(idx3 t).2]; omega

/-- The resident block of window 4 is the input gate's hidden weights, transposed, whatever the point. -/
theorem block4_at (c : Dev nD) (t : Fin cfg0.N) (k q : Fin 1024) :
    stagedWeight (iblk m c 4 t) (ix2 k q) = toWeight (m ((c : Thread nD τ).loc main_arg5)) (ix2 q k) := by
  refine Eq.trans ?_ (staged_v3 m c k q)
  show V m c main_v3 (((cfg0.win 4).blk t).view.emb (ix2 k q)) = V m c main_v3 (ix2 k q)
  refine congrArg _ (funext fun a => Fin.ext ?_)
  match a with
  | ⟨0, _⟩ => show win0_4.index t (0 : Fin 2) * 1024 + 1 * k.val = k.val; rw [(idx4 t).1]; omega
  | ⟨1, _⟩ => show win0_4.index t (1 : Fin 2) * 1024 + 1 * q.val = q.val; rw [(idx4 t).2]; omega

/-- The resident row of window 5 is the input gate's two biases, added, whatever the point. -/
theorem block5_at (c : Dev nD) (t : Fin cfg0.N) (q : Fin 1024) :
    stagedRow (iblk m c 5 t) (ix2 (0 : Fin 1) q) = toBias (m ((c : Thread nD τ).loc main_arg4)) (ix1 q) + toBias (m ((c : Thread nD τ).loc main_arg6)) (ix1 q) := by
  refine Eq.trans ?_ (staged_v17 m c 0 q)
  show V m c main_v17 (((cfg0.win 5).blk t).view.emb (ix2 (0 : Fin 1) q)) = V m c main_v17 (ix2 (0 : Fin 1) q)
  refine congrArg _ (funext fun a => Fin.ext ?_)
  match a with
  | ⟨0, _⟩ => show win0_5.index t (0 : Fin 2) * 1 + 1 * 0 = 0; rw [(idx5 t).1]
  | ⟨1, _⟩ => show win0_5.index t (1 : Fin 2) * 1024 + 1 * q.val = q.val; rw [(idx5 t).2]; omega

/-- The resident block of window 6 is the forget gate's input weights, transposed, whatever the point. -/
theorem block6_at (c : Dev nD) (t : Fin cfg0.N) (k q : Fin 1024) :
    stagedWeight (iblk m c 6 t) (ix2 k q) = toWeight (m ((c : Thread nD τ).loc main_arg7)) (ix2 q k) := by
  refine Eq.trans ?_ (staged_v5 m c k q)
  show V m c main_v5 (((cfg0.win 6).blk t).view.emb (ix2 k q)) = V m c main_v5 (ix2 k q)
  refine congrArg _ (funext fun a => Fin.ext ?_)
  match a with
  | ⟨0, _⟩ => show win0_6.index t (0 : Fin 2) * 1024 + 1 * k.val = k.val; rw [(idx6 t).1]; omega
  | ⟨1, _⟩ => show win0_6.index t (1 : Fin 2) * 1024 + 1 * q.val = q.val; rw [(idx6 t).2]; omega

/-- The resident block of window 7 is the forget gate's hidden weights, transposed, whatever the point. -/
theorem block7_at (c : Dev nD) (t : Fin cfg0.N) (k q : Fin 1024) :
    stagedWeight (iblk m c 7 t) (ix2 k q) = toWeight (m ((c : Thread nD τ).loc main_arg9)) (ix2 q k) := by
  refine Eq.trans ?_ (staged_v7 m c k q)
  show V m c main_v7 (((cfg0.win 7).blk t).view.emb (ix2 k q)) = V m c main_v7 (ix2 k q)
  refine congrArg _ (funext fun a => Fin.ext ?_)
  match a with
  | ⟨0, _⟩ => show win0_7.index t (0 : Fin 2) * 1024 + 1 * k.val = k.val; rw [(idx7 t).1]; omega
  | ⟨1, _⟩ => show win0_7.index t (1 : Fin 2) * 1024 + 1 * q.val = q.val; rw [(idx7 t).2]; omega

/-- The resident row of window 8 is the forget gate's two biases, added, whatever the point. -/
theorem block8_at (c : Dev nD) (t : Fin cfg0.N) (q : Fin 1024) :
    stagedRow (iblk m c 8 t) (ix2 (0 : Fin 1) q) = toBias (m ((c : Thread nD τ).loc main_arg8)) (ix1 q) + toBias (m ((c : Thread nD τ).loc main_arg10)) (ix1 q) := by
  refine Eq.trans ?_ (staged_v19 m c 0 q)
  show V m c main_v19 (((cfg0.win 8).blk t).view.emb (ix2 (0 : Fin 1) q)) = V m c main_v19 (ix2 (0 : Fin 1) q)
  refine congrArg _ (funext fun a => Fin.ext ?_)
  match a with
  | ⟨0, _⟩ => show win0_8.index t (0 : Fin 2) * 1 + 1 * 0 = 0; rw [(idx8 t).1]
  | ⟨1, _⟩ => show win0_8.index t (1 : Fin 2) * 1024 + 1 * q.val = q.val; rw [(idx8 t).2]; omega

/-- The resident block of window 9 is the output gate's input weights, transposed, whatever the point. -/
theorem block9_at (c : Dev nD) (t : Fin cfg0.N) (k q : Fin 1024) :
    stagedWeight (iblk m c 9 t) (ix2 k q) = toWeight (m ((c : Thread nD τ).loc main_arg11)) (ix2 q k) := by
  refine Eq.trans ?_ (staged_v9 m c k q)
  show V m c main_v9 (((cfg0.win 9).blk t).view.emb (ix2 k q)) = V m c main_v9 (ix2 k q)
  refine congrArg _ (funext fun a => Fin.ext ?_)
  match a with
  | ⟨0, _⟩ => show win0_9.index t (0 : Fin 2) * 1024 + 1 * k.val = k.val; rw [(idx9 t).1]; omega
  | ⟨1, _⟩ => show win0_9.index t (1 : Fin 2) * 1024 + 1 * q.val = q.val; rw [(idx9 t).2]; omega

/-- The resident block of window 10 is the output gate's hidden weights, transposed, whatever the point. -/
theorem block10_at (c : Dev nD) (t : Fin cfg0.N) (k q : Fin 1024) :
    stagedWeight (iblk m c 10 t) (ix2 k q) = toWeight (m ((c : Thread nD τ).loc main_arg13)) (ix2 q k) := by
  refine Eq.trans ?_ (staged_v11 m c k q)
  show V m c main_v11 (((cfg0.win 10).blk t).view.emb (ix2 k q)) = V m c main_v11 (ix2 k q)
  refine congrArg _ (funext fun a => Fin.ext ?_)
  match a with
  | ⟨0, _⟩ => show win0_10.index t (0 : Fin 2) * 1024 + 1 * k.val = k.val; rw [(idx10 t).1]; omega
  | ⟨1, _⟩ => show win0_10.index t (1 : Fin 2) * 1024 + 1 * q.val = q.val; rw [(idx10 t).2]; omega

/-- The resident row of window 11 is the output gate's two biases, added, whatever the point. -/
theorem block11_at (c : Dev nD) (t : Fin cfg0.N) (q : Fin 1024) :
    stagedRow (iblk m c 11 t) (ix2 (0 : Fin 1) q) = toBias (m ((c : Thread nD τ).loc main_arg12)) (ix1 q) + toBias (m ((c : Thread nD τ).loc main_arg14)) (ix1 q) := by
  refine Eq.trans ?_ (staged_v21 m c 0 q)
  show V m c main_v21 (((cfg0.win 11).blk t).view.emb (ix2 (0 : Fin 1) q)) = V m c main_v21 (ix2 (0 : Fin 1) q)
  refine congrArg _ (funext fun a => Fin.ext ?_)
  match a with
  | ⟨0, _⟩ => show win0_11.index t (0 : Fin 2) * 1 + 1 * 0 = 0; rw [(idx11 t).1]
  | ⟨1, _⟩ => show win0_11.index t (1 : Fin 2) * 1024 + 1 * q.val = q.val; rw [(idx11 t).2]; omega

/-- The resident block of window 12 is the candidate's input weights, transposed, whatever the point. -/
theorem block12_at (c : Dev nD) (t : Fin cfg0.N) (k q : Fin 1024) :
    stagedWeight (iblk m c 12 t) (ix2 k q) = toWeight (m ((c : Thread nD τ).loc main_arg15)) (ix2 q k) := by
  refine Eq.trans ?_ (staged_v13 m c k q)
  show V m c main_v13 (((cfg0.win 12).blk t).view.emb (ix2 k q)) = V m c main_v13 (ix2 k q)
  refine congrArg _ (funext fun a => Fin.ext ?_)
  match a with
  | ⟨0, _⟩ => show win0_12.index t (0 : Fin 2) * 1024 + 1 * k.val = k.val; rw [(idx12 t).1]; omega
  | ⟨1, _⟩ => show win0_12.index t (1 : Fin 2) * 1024 + 1 * q.val = q.val; rw [(idx12 t).2]; omega

/-- The resident block of window 13 is the candidate's hidden weights, transposed, whatever the point. -/
theorem block13_at (c : Dev nD) (t : Fin cfg0.N) (k q : Fin 1024) :
    stagedWeight (iblk m c 13 t) (ix2 k q) = toWeight (m ((c : Thread nD τ).loc main_arg17)) (ix2 q k) := by
  refine Eq.trans ?_ (staged_v15 m c k q)
  show V m c main_v15 (((cfg0.win 13).blk t).view.emb (ix2 k q)) = V m c main_v15 (ix2 k q)
  refine congrArg _ (funext fun a => Fin.ext ?_)
  match a with
  | ⟨0, _⟩ => show win0_13.index t (0 : Fin 2) * 1024 + 1 * k.val = k.val; rw [(idx13 t).1]; omega
  | ⟨1, _⟩ => show win0_13.index t (1 : Fin 2) * 1024 + 1 * q.val = q.val; rw [(idx13 t).2]; omega

/-- The resident row of window 14 is the candidate's two biases, added, whatever the point. -/
theorem block14_at (c : Dev nD) (t : Fin cfg0.N) (q : Fin 1024) :
    stagedRow (iblk m c 14 t) (ix2 (0 : Fin 1) q) = toBias (m ((c : Thread nD τ).loc main_arg16)) (ix1 q) + toBias (m ((c : Thread nD τ).loc main_arg18)) (ix1 q) := by
  refine Eq.trans ?_ (staged_v23 m c 0 q)
  show V m c main_v23 (((cfg0.win 14).blk t).view.emb (ix2 (0 : Fin 1) q)) = V m c main_v23 (ix2 (0 : Fin 1) q)
  refine congrArg _ (funext fun a => Fin.ext ?_)
  match a with
  | ⟨0, _⟩ => show win0_14.index t (0 : Fin 2) * 1 + 1 * 0 = 0; rw [(idx14 t).1]
  | ⟨1, _⟩ => show win0_14.index t (1 : Fin 2) * 1024 + 1 * q.val = q.val; rw [(idx14 t).2]; omega

/-! ## What a point writes back -/

theorem hz : (![0, 0] : Fin 2 → Nat) = fun _ => 0 := funext fun a => by fin_cases a <;> rfl

/-- A function on a 256 × 1024 block is determined by its values at the entries [p, q]. -/
theorem block_ext {α : Type} (f g : S256x1024.Idx → α) (h : ∀ (p : Fin 256) (q : Fin 1024), f (ix2 p q) = g (ix2 p q)) : f = g :=
  funext fun y => by rw [eq_ix2 y]; exact h _ _

/-- The specification's next cell state of the arguments in memory. -/
abbrev cellArr (c : Dev nD) : Batch :=
  cellNext (toBatch (m ((c : Thread nD τ).loc main_arg0))) (toBatch (m ((c : Thread nD τ).loc main_arg1))) (toBatch (m ((c : Thread nD τ).loc main_arg2))) (toWeight (m ((c : Thread nD τ).loc main_arg3))) (toBias (m ((c : Thread nD τ).loc main_arg4))) (toWeight (m ((c : Thread nD τ).loc main_arg5))) (toBias (m ((c : Thread nD τ).loc main_arg6)))
    (toWeight (m ((c : Thread nD τ).loc main_arg7))) (toBias (m ((c : Thread nD τ).loc main_arg8))) (toWeight (m ((c : Thread nD τ).loc main_arg9))) (toBias (m ((c : Thread nD τ).loc main_arg10)))
    (toWeight (m ((c : Thread nD τ).loc main_arg15))) (toBias (m ((c : Thread nD τ).loc main_arg16))) (toWeight (m ((c : Thread nD τ).loc main_arg17))) (toBias (m ((c : Thread nD τ).loc main_arg18)))

/-- The specification's next hidden state of the arguments in memory. -/
abbrev hiddenArr (c : Dev nD) : Batch :=
  hiddenNext (toBatch (m ((c : Thread nD τ).loc main_arg0))) (toBatch (m ((c : Thread nD τ).loc main_arg1))) (toBatch (m ((c : Thread nD τ).loc main_arg2))) (toWeight (m ((c : Thread nD τ).loc main_arg3))) (toBias (m ((c : Thread nD τ).loc main_arg4))) (toWeight (m ((c : Thread nD τ).loc main_arg5))) (toBias (m ((c : Thread nD τ).loc main_arg6)))
    (toWeight (m ((c : Thread nD τ).loc main_arg7))) (toBias (m ((c : Thread nD τ).loc main_arg8))) (toWeight (m ((c : Thread nD τ).loc main_arg9))) (toBias (m ((c : Thread nD τ).loc main_arg10)))
    (toWeight (m ((c : Thread nD τ).loc main_arg11))) (toBias (m ((c : Thread nD τ).loc main_arg12))) (toWeight (m ((c : Thread nD τ).loc main_arg13))) (toBias (m ((c : Thread nD τ).loc main_arg14)))
    (toWeight (m ((c : Thread nD τ).loc main_arg15))) (toBias (m ((c : Thread nD τ).loc main_arg16))) (toWeight (m ((c : Thread nD τ).loc main_arg17))) (toBias (m ((c : Thread nD τ).loc main_arg18)))

/-- Point t writes back, to the cell-state result, rows 256·t … 256·t + 255 of the specification's next cell state. -/
theorem flushed16_eq (c : Dev nD) (t : Fin cfg0.N) :
    (dats m 0 c).flushed 16 t = ((cfg0.win 16).blk t).view.read (Elt Ideal) (cellArr m c) := by
  rw [Value.flushed16]
  unfold out0_16
  rw [View.canon_unit_zero hz]
  simp only [View.ld_unit_zero (S := S256x1024) hz, View.ld_unit_zero (S := S1024x1024) hz, View.ld_unit_zero (S := S1x1024) hz]
  refine block_ext _ _ fun p q => ?_
  have hemb : ((cfg0.win 16).blk t).view.emb (ix2 p q) = ix2 (rowOf t p) q := funext fun a => Fin.ext (by
    match a with
    | ⟨0, _⟩ => show win0_16.index t (0 : Fin 2) * 256 + 1 * p.val = 256 * t.val + p.val; rw [(idx16 t).1]; omega
    | ⟨1, _⟩ => show win0_16.index t (1 : Fin 2) * 1024 + 1 * q.val = q.val; rw [(idx16 t).2]; omega)
  show k0_pay1 (F := Ideal) (k0_pay3 (iblk m c 0 t)) (k0_pay4 (iblk m c 1 t)) (iblk m c 2 t) (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t)) (iblk m c 12 t) (iblk m c 13 t) (iblk m c 14 t) (ix2 p q)
    = cellArr m c (((cfg0.win 16).blk t).view.emb (ix2 p q))
  rw [hemb]
  refine (cell_pay_at (iblk m c 0 t) (iblk m c 1 t) (iblk m c 2 t) (iblk m c 3 t) (iblk m c 4 t) (iblk m c 5 t) (iblk m c 6 t) (iblk m c 7 t) (iblk m c 8 t) (iblk m c 12 t) (iblk m c 13 t) (iblk m c 14 t) p q).trans ?_
  exact cellBlock_eq_cellNext (iblk m c 0 t) (iblk m c 1 t) (iblk m c 2 t) (iblk m c 3 t) (iblk m c 4 t) (iblk m c 5 t) (iblk m c 6 t) (iblk m c 7 t) (iblk m c 8 t) (iblk m c 12 t) (iblk m c 13 t) (iblk m c 14 t)
    (toBatch (m ((c : Thread nD τ).loc main_arg0))) (toBatch (m ((c : Thread nD τ).loc main_arg1))) (toBatch (m ((c : Thread nD τ).loc main_arg2))) (toWeight (m ((c : Thread nD τ).loc main_arg3))) (toBias (m ((c : Thread nD τ).loc main_arg4))) (toWeight (m ((c : Thread nD τ).loc main_arg5))) (toBias (m ((c : Thread nD τ).loc main_arg6)))
    (toWeight (m ((c : Thread nD τ).loc main_arg7))) (toBias (m ((c : Thread nD τ).loc main_arg8))) (toWeight (m ((c : Thread nD τ).loc main_arg9))) (toBias (m ((c : Thread nD τ).loc main_arg10)))
    (toWeight (m ((c : Thread nD τ).loc main_arg15))) (toBias (m ((c : Thread nD τ).loc main_arg16))) (toWeight (m ((c : Thread nD τ).loc main_arg17))) (toBias (m ((c : Thread nD τ).loc main_arg18))) (rowOf t p) p q
    (fun k => block0_at m c t p k) (fun k => block1_at m c t p k) (block2_at m c t p q)
    (fun k => block3_at m c t k q) (fun k => block4_at m c t k q) (block5_at m c t q)
    (fun k => block6_at m c t k q) (fun k => block7_at m c t k q) (block8_at m c t q)
    (fun k => block12_at m c t k q) (fun k => block13_at m c t k q) (block14_at m c t q)

/-- Point t writes back, to the hidden-state result, rows 256·t … 256·t + 255 of the specification's next hidden state. -/
theorem flushed15_eq (c : Dev nD) (t : Fin cfg0.N) :
    (dats m 0 c).flushed 15 t = ((cfg0.win 15).blk t).view.read (Elt Ideal) (hiddenArr m c) := by
  rw [Value.flushed15]
  unfold out0_15
  rw [View.canon_unit_zero hz]
  simp only [View.ld_unit_zero (S := S256x1024) hz, View.ld_unit_zero (S := S1024x1024) hz, View.ld_unit_zero (S := S1x1024) hz]
  refine block_ext _ _ fun p q => ?_
  have hemb : ((cfg0.win 15).blk t).view.emb (ix2 p q) = ix2 (rowOf t p) q := funext fun a => Fin.ext (by
    match a with
    | ⟨0, _⟩ => show win0_15.index t (0 : Fin 2) * 256 + 1 * p.val = 256 * t.val + p.val; rw [(idx15 t).1]; omega
    | ⟨1, _⟩ => show win0_15.index t (1 : Fin 2) * 1024 + 1 * q.val = q.val; rw [(idx15 t).2]; omega)
  show k0_pay2 (F := Ideal) (k0_pay3 (iblk m c 0 t)) (k0_pay4 (iblk m c 1 t)) (iblk m c 2 t) (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t)) (k0_pay7 (iblk m c 0 t) (iblk m c 9 t)) (k0_pay8 (iblk m c 10 t)) (iblk m c 11 t) (iblk m c 12 t) (iblk m c 13 t) (iblk m c 14 t) (ix2 p q)
    = hiddenArr m c (((cfg0.win 15).blk t).view.emb (ix2 p q))
  rw [hemb]
  refine (hidden_pay_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  exact hiddenBlock_eq_hiddenNext (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (toBatch (m ((c : Thread nD τ).loc main_arg0))) (toBatch (m ((c : Thread nD τ).loc main_arg1))) (toBatch (m ((c : Thread nD τ).loc main_arg2))) (toWeight (m ((c : Thread nD τ).loc main_arg3))) (toBias (m ((c : Thread nD τ).loc main_arg4))) (toWeight (m ((c : Thread nD τ).loc main_arg5))) (toBias (m ((c : Thread nD τ).loc main_arg6)))
    (toWeight (m ((c : Thread nD τ).loc main_arg7))) (toBias (m ((c : Thread nD τ).loc main_arg8))) (toWeight (m ((c : Thread nD τ).loc main_arg9))) (toBias (m ((c : Thread nD τ).loc main_arg10)))
    (toWeight (m ((c : Thread nD τ).loc main_arg11))) (toBias (m ((c : Thread nD τ).loc main_arg12))) (toWeight (m ((c : Thread nD τ).loc main_arg13))) (toBias (m ((c : Thread nD τ).loc main_arg14)))
    (toWeight (m ((c : Thread nD τ).loc main_arg15))) (toBias (m ((c : Thread nD τ).loc main_arg16))) (toWeight (m ((c : Thread nD τ).loc main_arg17))) (toBias (m ((c : Thread nD τ).loc main_arg18))) (rowOf t p) p q
    (fun k => block0_at m c t p k) (fun k => block1_at m c t p k) (block2_at m c t p q)
    (fun k => block3_at m c t k q) (fun k => block4_at m c t k q) (block5_at m c t q)
    (fun k => block6_at m c t k q) (fun k => block7_at m c t k q) (block8_at m c t q)
    (fun k => block9_at m c t k q) (fun k => block10_at m c t k q) (block11_at m c t q)
    (fun k => block12_at m c t k q) (fun k => block13_at m c t k q) (block14_at m c t q)

/-! ## The blocks tile the result arrays -/

/-- An index is in point t's block of window 15 iff each coordinate is in the block's range. -/
theorem mem_blk15 (t : Fin cfg0.N) (i : S16384x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v24_0).slice (win0_15.rect t)).set ↔ _
  rw [View.set_slice_whole, Rect.mem_set_unit]
  exact Iff.rfl

/-- Row r of the array lies in the block of point r / 256: the 64 blocks tile the 16384 rows. -/
theorem cover15 (i : S16384x1024.Idx) :
    ∃ t : Fin cfg0.N, (cfg0.win 15).flush t = true ∧ i ∈ ((cfg0.win 15).blk t).view.set := by
  have hi0 : (i 0).val < 16384 := (i 0).isLt
  have hi1 : (i 1).val < 1024 := (i 1).isLt
  have hlt : (i 0).val / 256 < cfg0.N := by
    have h64 : grid0.N = 64 := N_0
    show (i 0).val / 256 < grid0.N
    omega
  have e0 : win0_15.index ⟨(i 0).val / 256, hlt⟩ (0 : Fin 2) = (i 0).val / 256 := (idx15 ⟨_, hlt⟩).1
  have e1 : win0_15.index ⟨(i 0).val / 256, hlt⟩ (1 : Fin 2) = 0 := (idx15 ⟨_, hlt⟩).2
  refine ⟨⟨(i 0).val / 256, hlt⟩, flush0_15 _, ?_⟩
  rw [mem_blk15]
  intro a
  match a with
  | ⟨0, _⟩ =>
    show win0_15.index ⟨(i 0).val / 256, hlt⟩ (0 : Fin 2) * 256 ≤ (i 0).val ∧ (i 0).val < win0_15.index ⟨(i 0).val / 256, hlt⟩ (0 : Fin 2) * 256 + 256
    rw [e0]; omega
  | ⟨1, _⟩ =>
    show win0_15.index ⟨(i 0).val / 256, hlt⟩ (1 : Fin 2) * 1024 ≤ (i 1).val ∧ (i 1).val < win0_15.index ⟨(i 0).val / 256, hlt⟩ (1 : Fin 2) * 1024 + 1024
    rw [e1]; omega

/-- An index is in point t's block of window 16 iff each coordinate is in the block's range. -/
theorem mem_blk16 (t : Fin cfg0.N) (i : S16384x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v24_1).slice (win0_16.rect t)).set ↔ _
  rw [View.set_slice_whole, Rect.mem_set_unit]
  exact Iff.rfl

/-- Row r of the array lies in the block of point r / 256: the 64 blocks tile the 16384 rows. -/
theorem cover16 (i : S16384x1024.Idx) :
    ∃ t : Fin cfg0.N, (cfg0.win 16).flush t = true ∧ i ∈ ((cfg0.win 16).blk t).view.set := by
  have hi0 : (i 0).val < 16384 := (i 0).isLt
  have hi1 : (i 1).val < 1024 := (i 1).isLt
  have hlt : (i 0).val / 256 < cfg0.N := by
    have h64 : grid0.N = 64 := N_0
    show (i 0).val / 256 < grid0.N
    omega
  have e0 : win0_16.index ⟨(i 0).val / 256, hlt⟩ (0 : Fin 2) = (i 0).val / 256 := (idx16 ⟨_, hlt⟩).1
  have e1 : win0_16.index ⟨(i 0).val / 256, hlt⟩ (1 : Fin 2) = 0 := (idx16 ⟨_, hlt⟩).2
  refine ⟨⟨(i 0).val / 256, hlt⟩, flush0_16 _, ?_⟩
  rw [mem_blk16]
  intro a
  match a with
  | ⟨0, _⟩ =>
    show win0_16.index ⟨(i 0).val / 256, hlt⟩ (0 : Fin 2) * 256 ≤ (i 0).val ∧ (i 0).val < win0_16.index ⟨(i 0).val / 256, hlt⟩ (0 : Fin 2) * 256 + 256
    rw [e0]; omega
  | ⟨1, _⟩ =>
    show win0_16.index ⟨(i 0).val / 256, hlt⟩ (1 : Fin 2) * 1024 ≤ (i 1).val ∧ (i 1).val < win0_16.index ⟨(i 0).val / 256, hlt⟩ (1 : Fin 2) * 1024 + 1024
    rw [e1]; omega

/-! ## The result arrays after the run -/

/-- After the run the hidden-state result holds the specification's next hidden state. -/
theorem final15 (c : Dev nD) : (dats m 0 c).arrAt 15 cfg0.N = hiddenArr m c :=
  (dats m 0 c).arrAt_eq_of_cover 15 (hiddenArr m c) (fun t _ => flushed15_eq m c t) cover15

/-- After the run the cell-state result holds the specification's next cell state. -/
theorem final16 (c : Dev nD) : (dats m 0 c).arrAt 16 cfg0.N = cellArr m c :=
  (dats m 0 c).arrAt_eq_of_cover 16 (cellArr m c) (fun t _ => flushed16_eq m c t) cover16

/-- Every weakly fair execution of the kernel program ends with the two results at the specification's two functions
    of the arguments, and the arguments unchanged. -/
theorem run : θ_run defs (onTc (τ := τ) (main (F := Ideal))) ⟨m, fun _ => 0, ρ⟩ fun r => ∀ c : Dev nD,
      r.2.mem ((c : Thread nD τ).loc main_v24_0) = hiddenArr m c
      ∧ r.2.mem ((c : Thread nD τ).loc main_v24_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final15 m c), (h c).2.1.trans (final16 m c), (h c).2.2⟩)
    (Value.run_blocks m ρ)

end Cert.KernelIdeal.LstmValue

end
-- ==== Proof.lean ====
/-
  One step of an LSTM cell: a batch-tiled kernel against a fused reference, equal over the extended reals.

  The kernel walks the 16384 batch rows in 64 tiles of 256.  For each tile it forms the four gates' pre-activations from
  eight resident 1024 × 1024 matrices (the weights, transposed and narrowed to bfloat16 before the launch) and four
  resident bias rows (each gate's two biases, added before the launch), applies the logistic function and tanh, and
  writes the tile's rows of the next hidden state and the next cell state.  The reference stacks the four gates' weights
  and biases, forms all pre-activations with two large products, cuts the result into the four gates, and spells the
  logistic function as 1 / (1 + exp(−a)).

  Over the extended reals narrowing to bfloat16 is the identity, a product into a zero accumulator is the plain sum over
  the 1024 features, and 1 / (1 + exp(−a)) is the logistic function.  Both programs group each pre-activation as
  (x-product + h-product) + (bias + bias) and the cell update as forget · c + input · tanh(candidate), so the two sides
  are the same expression index by index: no sum is reordered and no factor is moved across a sum, and the inputs'
  finiteness is never used.  Both results are stated as one pair of functions of the arguments (Proof/Spec.lean); the
  reference's results are read as that pair in Proof/RefGates.lean and Proof/RefValue.lean, the kernel's in
  Proof/KernelHost.lean (the resident arrays), Proof/KernelBody.lean (a tile's arithmetic) and Proof/KernelValue.lean
  (tiles to arrays).
-/
import proofs.«158879_j16243566313496_1_alg».proof.Defs
import proofs.«158879_j16243566313496_1_alg».proof.Proof.Gen.Kernel
import proofs.«158879_j16243566313496_1_alg».proof.Proof.Gen.Kernel.Skeleton
import proofs.«158879_j16243566313496_1_alg».proof.Proof.Gen.Kernel.Launch
import proofs.«158879_j16243566313496_1_alg».proof.Proof.Gen.Kernel.Points
import proofs.«158879_j16243566313496_1_alg».proof.Proof.Gen.Kernel.Frame
import proofs.«158879_j16243566313496_1_alg».proof.Proof.Gen.KernelIdeal
import proofs.«158879_j16243566313496_1_alg».proof.Proof.Gen.KernelIdeal.Skeleton
import proofs.«158879_j16243566313496_1_alg».proof.Proof.Gen.KernelIdeal.Launch
import proofs.«158879_j16243566313496_1_alg».proof.Proof.Gen.KernelIdeal.Points
import proofs.«158879_j16243566313496_1_alg».proof.Proof.Gen.KernelIdeal.Frame
import proofs.«158879_j16243566313496_1_alg».proof.Proof.Gen.ReferenceIdeal
import proofs.«158879_j16243566313496_1_alg».proof.Proof.Gen.Pre_finite_inputs
import proofs.«158879_j16243566313496_1_alg».proof.Proof.Gen.KernelIdeal.Value
import proofs.«158879_j16243566313496_1_alg».proof.Proof.Gen.ReferenceIdeal.Run
import proofs.«158879_j16243566313496_1_alg».proof.Proof.Gen.ReferenceIdeal.Read
import proofs.«158879_j16243566313496_1_alg».proof.Proof.RefValue
import proofs.«158879_j16243566313496_1_alg».proof.Proof.KernelValue
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of array operations; its run ends with the arguments as they were. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing in this kernel. -/
theorem preserves : Cert.preserves_Kernel_KernelIdeal := trivial

/-- From memories that agree on the nineteen arguments, both programs end with the next hidden state and the next cell
    state of the specification: the kernel tile by tile, the reference through its fused products. -/
theorem algebraic : Cert.algebraic_KernelIdeal_ReferenceIdeal := by
  intro m ρ m' ρ' _ hagree
  refine ⟨fun c => Cert.KernelIdeal.LstmValue.hiddenArr m c, fun c => Cert.KernelIdeal.LstmValue.cellArr m c,
    Cert.KernelIdeal.LstmValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18⟩ := hagree c
  refine ⟨(h c).1.trans ?_, (h c).2.1.trans ?_, (h c).2.2⟩
  · rw [Cert.ReferenceIdeal.Read.val_main_v40_eq, a0, a1, a2, a3, a4, a5, a6, a7, a8, a9, a10, a11, a12, a13, a14, a15, a16, a17, a18]
    exact Cert.ReferenceIdeal.LstmRead.hidden_eq _ _ _ _ _ _ _ _ _ _ _ _ _ _ _ _ _ _ _
  · rw [Cert.ReferenceIdeal.Read.val_main_v38_eq, a0, a1, a2, a3, a4, a5, a6, a7, a8, a9, a10, a11, a12, a13, a14, a15, a16, a17, a18]
    exact Cert.ReferenceIdeal.LstmRead.cell_eq _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
